-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S8x128x128 : Shape := ⟨3, ![8, 128, 128]⟩
abbrev S8x1 : Shape := ⟨2, ![8, 1]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S8x128x128 : S_.BroadcastsInDim S8x128x128 (![] : Fin 0 → Fin S8x128x128.rank)
  reducesTo_S8x128x128_S_d0_1_2 : S8x128x128.ReducesTo [0, 1, 2] S_
  bcast_S_S8x1 : S_.BroadcastsInDim S8x1 (![] : Fin 0 → Fin S8x1.rank)
  reducesTo_S8x1_S_d0_1 : S8x1.ReducesTo [0, 1] S_

variable [Facts]

def fn {F : FTy → Type} [FloatOps F] (main_arg0 : FVec F S500000x128 .f32) (main_arg1 : FVec F S8x128x128 .f32) (main_arg2 : FVec F S8x1 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S8x128x128 .f32 := Host.absf main_arg1
  let main_cst_0 : FVec F S_ .f32 := constant S_ .f32 0x7F800000#32
  let main_v5 : FVec F S8x128x128 .f32 := broadcastInDim S8x128x128 ![] bcast_S_S8x128x128 main_cst_0
  let main_v6 : IVec S8x128x128 1 := cmpf .olt main_v4 main_v5
  let main_c_1 : IVec S_ 1 := constantI S_ 1 1#1
  let main_v7 : IVec S_ 1 := (fun x v => Host.reduce IntOp.andi x v reducesTo_S8x128x128_S_d0_1_2 h_S_) main_v6 main_c_1
  let main_v8 : IVec S_ 1 := andi main_v3 main_v7
  let main_v9 : FVec F S8x1 .f32 := Host.absf main_arg2
  let main_cst_2 : FVec F S_ .f32 := constant S_ .f32 0x7F800000#32
  let main_v10 : FVec F S8x1 .f32 := broadcastInDim S8x1 ![] bcast_S_S8x1 main_cst_2
  let main_v11 : IVec S8x1 1 := cmpf .olt main_v9 main_v10
  let main_c_3 : IVec S_ 1 := constantI S_ 1 1#1
  let main_v12 : IVec S_ 1 := (fun x v => Host.reduce IntOp.andi x v reducesTo_S8x1_S_d0_1 h_S_) main_v11 main_c_3
  let main_v13 : IVec S_ 1 := andi main_v8 main_v12
  main_v13
-- ==== Kernel.lean ====
abbrev S500000x128 : Shape := ⟨2, ![500000, 128]⟩
abbrev S8x128x128 : Shape := ⟨3, ![8, 128, 128]⟩
abbrev S8x1 : Shape := ⟨2, ![8, 1]⟩
abbrev S8x1x1 : Shape := ⟨3, ![8, 1, 1]⟩
abbrev S_ : Shape := ⟨0, ![]⟩
abbrev S128x128 : Shape := ⟨2, ![128, 128]⟩
abbrev S20000x128 : Shape := ⟨2, ![20000, 128]⟩

abbrev nBuf : Space → Nat
  | .hbm => 9
  | .vmem => 5
  | .smem => 0
  | _ => 0

abbrev bufTy : (tb : Table) → Fin (tcTables nBuf tb) → BufTy
  | .hbm, ⟨0, _⟩ => ⟨S500000x128, .f32⟩
  | .hbm, ⟨1, _⟩ => ⟨S8x128x128, .f32⟩
  | .hbm, ⟨2, _⟩ => ⟨S8x1, .f32⟩
  | .hbm, ⟨3, _⟩ => ⟨S8x1x1, .f32⟩
  | .hbm, ⟨4, _⟩ => ⟨S8x128x128, .f32⟩
  | .hbm, ⟨5, _⟩ => ⟨S8x128x128, .f32⟩
  | .hbm, ⟨6, _⟩ => ⟨S_, .f32⟩
  | .hbm, ⟨7, _⟩ => ⟨S128x128, .f32⟩
  | .hbm, ⟨8, _⟩ => ⟨S500000x128, .f32⟩
  | .local _ .vmem, ⟨0, _⟩ => ⟨S20000x128, .f32⟩
  | .local _ .vmem, ⟨1, _⟩ => ⟨S20000x128, .f32⟩
  | .local _ .vmem, ⟨2, _⟩ => ⟨S128x128, .f32⟩
  | .local _ .vmem, ⟨3, _⟩ => ⟨S20000x128, .f32⟩
  | .local _ .vmem, ⟨4, _⟩ => ⟨S20000x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S8x1_S8x1x1_0_1 : S8x1.BroadcastsInDim S8x1x1 (![0, 1] : Fin 2 → Fin S8x1x1.rank)
  bcast_S8x1x1_S8x128x128_0_1_2 : S8x1x1.BroadcastsInDim S8x128x128 (![0, 1, 2] : Fin 3 → Fin S8x128x128.rank)
  reducesTo_S8x128x128_S128x128_d0 : S8x128x128.ReducesTo [0] S128x128
  h_S_ : 0 < S_.numel
  inb_S20000x128_S20000x128_0_0 : ∀ a, (![0, 0] : Fin 2 → Nat) a + S20000x128.size a ≤ S20000x128.size a
  h_S20000x128 : 0 < S20000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  dot_S20000x128_S128x128_S20000x128_1_0_0_1_n_n_wf : DotDims.WF S20000x128 S128x128 S20000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x128.size a ≤ S500000x128.size a
  hwx0_0 : ∀ i : grid0.Coords, EltTy.bits .f32 = 32 ∨ (Rect.block (s := S500000x128) S20000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x128.size a ≤ S500000x128.size a
  hwx0_2 : ∀ i : grid0.Coords, EltTy.bits .f32 = 32 ∨ (Rect.block (s := S500000x128) S20000x128.size (cc0_transform_2 i) (hinb0_2 i)).WholeWords (EltTy.packing .f32)

variable [Facts₀]

def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf

abbrev win0_0 : Pipeline.Window sig grid0 :=
  Pipeline.Window.ofSpec (Memref.whole main_arg0) S20000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S20000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S500000x128 : Shape := ⟨2, ![500000, 128]⟩
abbrev S8x128x128 : Shape := ⟨3, ![8, 128, 128]⟩
abbrev S8x1 : Shape := ⟨2, ![8, 1]⟩
abbrev S8x1x1 : Shape := ⟨3, ![8, 1, 1]⟩
abbrev S_ : Shape := ⟨0, ![]⟩
abbrev S128x128 : Shape := ⟨2, ![128, 128]⟩

abbrev nBuf : Space → Nat
  | .hbm => 9
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S8x128x128, .f32⟩
  | .hbm, ⟨2, _⟩ => ⟨S8x1, .f32⟩
  | .hbm, ⟨3, _⟩ => ⟨S8x1x1, .f32⟩
  | .hbm, ⟨4, _⟩ => ⟨S8x128x128, .f32⟩
  | .hbm, ⟨5, _⟩ => ⟨S8x128x128, .f32⟩
  | .hbm, ⟨6, _⟩ => ⟨S_, .f32⟩
  | .hbm, ⟨7, _⟩ => ⟨S128x128, .f32⟩
  | .hbm, ⟨8, _⟩ => ⟨S500000x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S8x1_S8x1x1_0_1 : S8x1.BroadcastsInDim S8x1x1 (![0, 1] : Fin 2 → Fin S8x1x1.rank)
  bcast_S8x1x1_S8x128x128_0_1_2 : S8x1x1.BroadcastsInDim S8x128x128 (![0, 1, 2] : Fin 3 → Fin S8x128x128.rank)
  reducesTo_S8x128x128_S128x128_d0 : S8x128x128.ReducesTo [0] S128x128
  h_S_ : 0 < S_.numel
  dot_S500000x128_S128x128_S500000x128_1_0_0_1_n_n_wf : DotDims.WF S500000x128 S128x128 S500000x128 [1] [0] [0] [1] [] []

variable [Facts₀]

def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf

class Facts : Prop extends Facts₀ where

variable [Facts]
-- ==== Proof.Spec.lean ====
/-
  The mathematics both programs compute, stated with no program in sight.

  A row block of the input is multiplied by ONE merged weight matrix.  With `x : [500000, 128]` and a
  matrix `w : [128, 128]`, entry `(r, j)` of the product is the sum over the contracted coordinate
  `k : Fin 128` of `x (r, k) * w (k, j)` on the extended reals.  The kernel obtains it 20000 rows at a
  time (25 blocks of rows, every block against the same resident matrix), the reference in one
  contraction over all 500000 rows; the entry at `(r, j)` only ever depends on row `r` of `x` and
  column `j` of `w`, so cutting the rows into blocks changes nothing.  No law beyond reading a sum
  at an index is involved, hence finiteness of the inputs is never used.
-/
import Idealize.ShloMosaic.PureOps.Ideal
import Idealize.ShloMosaic.Lib.ValueIdx

noncomputable section

open scoped BigOperators

namespace Cert.RowsTimesMatrix

open Idealize.ShloMosaic Idealize.ShloMosaic.ValueIdx

/-- The matrix product of all rows with the merged weights: entry `(r, j)` is `∑ k, x (r, k) * w (k, j)`. -/
def prod (x : (⟨2, ![500000, 128]⟩ : Shape).Idx → EReal) (w : (⟨2, ![128, 128]⟩ : Shape).Idx → EReal) :
    (⟨2, ![500000, 128]⟩ : Shape).Idx → EReal :=
  fun i => ∑ k : Fin 128, x (ix2 (i 0) k) * w (ix2 k (i 1))

/-- The product read at explicit coordinates. -/
theorem prod_apply (x : (⟨2, ![500000, 128]⟩ : Shape).Idx → EReal) (w : (⟨2, ![128, 128]⟩ : Shape).Idx → EReal)
    (r : Fin 500000) (j : Fin 128) : prod x w (ix2 r j) = ∑ k : Fin 128, x (ix2 r k) * w (ix2 k j) := rfl

end Cert.RowsTimesMatrix

end
-- ==== Proof.BlockProduct.lean ====
/-
  One grid point's arithmetic, read at an entry.

  At a grid point the body holds a block `x` of 20000 rows of the input and the whole merged matrix
  `w`, rounds both to bf16 (no change on the extended reals: a change of float format is the
  identity there), and contracts the 128 columns of `x` against the 128 rows of `w` into a zero
  accumulator.  So entry `(p, q)` of what it stores is `∑ k, x (p, k) * w (k, q)`: the zero
  accumulator adds nothing, the contraction's one index is the coordinate `k : Fin 128`, the left
  operand is read at `(p, k)` and the right at `(k, q)`.
-/
import proofs.«400113_j5420248727955_4_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.BlockProduct

open Cert.KernelIdeal Cert.KernelIdeal.Gen Idealize.ShloMosaic Idealize.ShloMosaic.ValueIdx

/-- Axis 0 of the left operand's index is the output row. -/
theorem lhs_block_0 (i : S20000x128.Idx) (q : dot_S20000x128_S128x128_S20000x128_1_0_0_1_n_n.contr.Idx) :
    (dot_S20000x128_S128x128_S20000x128_1_0_0_1_n_n.lhsIdx i q 0).val = (i 0).val := by
  unfold DotDims.lhsIdx
  rw [dif_neg (show ¬(0 : Fin S20000x128.rank) ∈ dot_S20000x128_S128x128_S20000x128_1_0_0_1_n_n.lhsBatch by decide), dif_pos (show (0 : Fin S20000x128.rank) ∈ dot_S20000x128_S128x128_S20000x128_1_0_0_1_n_n.lhsNonContracting by decide)]
  rfl
/-- Axis 1 of the left operand's index is the contracted coordinate. -/
theorem lhs_block_1 (i : S20000x128.Idx) (q : dot_S20000x128_S128x128_S20000x128_1_0_0_1_n_n.contr.Idx) :
    (dot_S20000x128_S128x128_S20000x128_1_0_0_1_n_n.lhsIdx i q 1).val = (q ⟨0, by decide⟩).val :=
  dot_S20000x128_S128x128_S20000x128_1_0_0_1_n_n.lhsIdx_val_of_single rfl i q
/-- Axis 0 of the right operand's index is the contracted coordinate. -/
theorem rhs_block_0 (i : S20000x128.Idx) (q : dot_S20000x128_S128x128_S20000x128_1_0_0_1_n_n.contr.Idx) :
    (dot_S20000x128_S128x128_S20000x128_1_0_0_1_n_n.rhsIdx i q 0).val = (q ⟨0, by decide⟩).val :=
  dot_S20000x128_S128x128_S20000x128_1_0_0_1_n_n.rhsIdx_val_of_single rfl i q
/-- Axis 1 of the right operand's index is the output column. -/
theorem rhs_block_1 (i : S20000x128.Idx) (q : dot_S20000x128_S128x128_S20000x128_1_0_0_1_n_n.contr.Idx) :
    (dot_S20000x128_S128x128_S20000x128_1_0_0_1_n_n.rhsIdx i q 1).val = (i 1).val := by
  unfold DotDims.rhsIdx
  rw [dif_neg (show ¬(1 : Fin S128x128.rank) ∈ dot_S20000x128_S128x128_S20000x128_1_0_0_1_n_n.rhsBatch by decide), dif_pos (show (1 : Fin S128x128.rank) ∈ dot_S20000x128_S128x128_S20000x128_1_0_0_1_n_n.rhsNonContracting by decide)]
  rfl

/-- The block product into a zero accumulator, at an entry: the sum over the contracted coordinate. -/
theorem matmul_block_apply (l : FVec Ideal S20000x128 .bf16) (r : FVec Ideal S128x128 .bf16) (p : Fin 20000) (q : Fin 128) :
    matmul dot_S20000x128_S128x128_S20000x128_1_0_0_1_n_n none l r (constant S20000x128 .f32 0x00000000#32) (ix2 p q)
      = ∑ k : Fin 128, l (ix2 p k) * r (ix2 k q) := by
  simp only [matmul]
  rw [Ideal.matmul_constant_zero_apply, ← Equiv.sum_comp (contrEquiv1 dot_S20000x128_S128x128_S20000x128_1_0_0_1_n_n 128 rfl rfl).symm]
  refine Finset.sum_congr rfl fun k _ => ?_
  have hk := contrEquiv1_symm_val dot_S20000x128_S128x128_S20000x128_1_0_0_1_n_n 128 rfl rfl k
  have el : dot_S20000x128_S128x128_S20000x128_1_0_0_1_n_n.lhsIdx (ix2 p q) ((contrEquiv1 dot_S20000x128_S128x128_S20000x128_1_0_0_1_n_n 128 rfl rfl).symm k) = ix2 p k := funext fun a => Fin.ext (by
    match a with
    | ⟨0, _⟩ => exact lhs_block_0 _ _
    | ⟨1, _⟩ => exact (lhs_block_1 _ _).trans hk)
  have er : dot_S20000x128_S128x128_S20000x128_1_0_0_1_n_n.rhsIdx (ix2 p q) ((contrEquiv1 dot_S20000x128_S128x128_S20000x128_1_0_0_1_n_n 128 rfl rfl).symm k) = ix2 k q := funext fun a => Fin.ext (by
    match a with
    | ⟨0, _⟩ => exact (rhs_block_0 _ _).trans hk
    | ⟨1, _⟩ => exact rhs_block_1 _ _)
  rw [el, er]

/-- What the body stores, at entry `(p, q)` of the block: the rounding to bf16 and the trivial reshape drop out. -/
theorem stored_apply (x : Vec Ideal S20000x128 .f32) (w : Vec Ideal S128x128 .f32) (p : Fin 20000) (q : Fin 128) :
    k0_pay1 (F := Ideal) x w (ix2 p q) = ∑ k : Fin 128, x (ix2 p k) * w (ix2 k q) := by
  unfold k0_pay1
  rw [matmul_block_apply, shapeCast_self]
  rfl

end Cert.KernelIdeal.BlockProduct

end
-- ==== Proof.MergedWeights.lean ====
/-
  The merged weight matrix, as the kernel's region finds it.

  Before the one kernel launch the program scales each of the 8 relation matrices by its scalar
  (the [8, 1] scales broadcast over the [8, 128, 128] weights, an entrywise product) and adds the 8
  scaled matrices up, entry by entry, starting from zero: `W (k, j) = 0 + ∑ r, weights (r, k, j) *
  scales (r)`.  The result is written to the array the kernel's second window stages, and no other
  operation touches it before the launch.  This module names that array's contents as one term of
  the two weight arguments; the reference computes the very same term before its own contraction.
-/
import proofs.«400113_j5420248727955_4_alg».proof.Proof.Gen.KernelIdeal.Frame
import Idealize.ShloMosaic.Lib.StableHlo.Run

noncomputable section

namespace Cert.KernelIdeal.MergedWeights

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The sum over the 8 relations of each relation's matrix scaled by its scalar. -/
def merged (wts : (⟨S8x128x128, .f32⟩ : BufTy).Contents (Elt F)) (scl : (⟨S8x1, .f32⟩ : BufTy).Contents (Elt F)) :
    (⟨S128x128, .f32⟩ : BufTy).Contents (Elt F) :=
  Host.reduceAdd (mulf wts (broadcastInDim S8x128x128 ![0, 1, 2] bcast_S8x1x1_S8x128x128_0_1_2 (broadcastInDim S8x1x1 ![0, 1] bcast_S8x1_S8x1x1_0_1 scl)))
    (constant S_ .f32 0x00000000#32) reducesTo_S8x128x128_S128x128_d0 h_S_

/-- At region entry the second window's array holds the merged weights of the two weight arguments as launched. -/
theorem entry_weights (c : Dev nD) :
    (V m c main_v3 : (⟨S128x128, .f32⟩ : BufTy).Contents (Elt F))
      = merged (m ((c : Thread nD τ).loc main_arg1)) (m ((c : Thread nD τ).loc main_arg2)) := by
  unfold merged
  dsimp only [Gen.V, Gen.hostOps0]
  after_results

end Cert.KernelIdeal.MergedWeights

end
-- ==== Proof.RowBlocks.lean ====
/-
  From row blocks to the whole output array.

  The grid has 25 points; point `t` stages rows `20000 t … 20000 t + 19999` of the input (all 128
  columns), the whole merged matrix (the same block at every point), and writes back rows
  `20000 t … 20000 t + 19999` of the output.  Entry `(p, q)` of what point `t` writes is
  `∑ k, x (20000 t + p, k) * W (k, q)`, which is entry `(20000 t + p, q)` of the product of ALL rows
  with `W`: a row of the product depends on that row of the input only.  Every output row `r` lies in
  exactly the block of point `r / 20000`, so the 25 blocks cover the array and after the run the
  output array is the whole product.
-/
import proofs.«400113_j5420248727955_4_alg».proof.Proof.Gen.KernelIdeal.Value
import proofs.«400113_j5420248727955_4_alg».proof.Proof.Spec
import proofs.«400113_j5420248727955_4_alg».proof.Proof.BlockProduct
import proofs.«400113_j5420248727955_4_alg».proof.Proof.MergedWeights
import Idealize.ShloMosaic.Lib.Pipeline.Value
import Idealize.ShloMosaic.Lib.ValueIdx

set_option maxRecDepth 16384

noncomputable section

open scoped BigOperators

namespace Cert.KernelIdeal.RowBlocks

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.RowsTimesMatrix (prod)

variable (m : (ℓ : Loc nD τ sig) → Buf (Elt Ideal) ℓ) (ρ : Dev nD → PrngReg)

/-- The body's accesses start at the corner of their buffers. -/
theorem corner : (![0, 0] : Fin 2 → Nat) = fun _ => 0 := funext fun a => by fin_cases a <;> rfl

/-- The three windows' block indices at each of the 25 points: the input's and the output's row block is the
    point's number, every column block is 0, and the matrix is always its one block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of all rows with the matrix the region found. -/
theorem flushed_eq (c : Dev nD) (t : Fin cfg0.N) :
    (dats m 0 c).flushed 2 t = ((cfg0.win 2).blk t).view.read (Elt Ideal) (prod (V m c main_arg0) (V m c main_v3)) := by
  rw [Value.flushed2]
  unfold out0_2
  rw [View.canon_unit_zero corner]
  simp only [View.ld_unit_zero (S := S20000x128) corner, View.ld_unit_zero (S := S128x128) corner]
  obtain ⟨e00, e01, e10, e11, e20, e21⟩ := block_indices t
  funext j
  obtain ⟨p, q, rfl⟩ : ∃ (p : Fin 20000) (q : Fin 128), j = ix2 p q := ⟨j 0, j 1, eq_ix2 j⟩
  show k0_pay1 (iblk m c 0 t) (iblk m c 1 t) (ix2 p q) = prod (V m c main_arg0) (V m c main_v3) (((cfg0.win 2).blk t).view.emb (ix2 p q))
  refine (BlockProduct.stored_apply (iblk m c 0 t) (iblk m c 1 t) p q).trans ?_
  refine Finset.sum_congr rfl fun k _ => ?_
  have hx : ((cfg0.win 0).blk t).view.emb (ix2 p k) = ix2 ((((cfg0.win 2).blk t).view.emb (ix2 p q)) 0) k := by
    funext a; apply Fin.ext
    match a with
    | ⟨0, _⟩ => show win0_0.index t (0 : Fin 2) * 20000 + 1 * p.val = win0_2.index t (0 : Fin 2) * 20000 + 1 * p.val; omega
    | ⟨1, _⟩ => show win0_0.index t (1 : Fin 2) * 128 + 1 * k.val = k.val; omega
  have hw : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  have h0 : iblk m c 0 t (ix2 p k) = V m c main_arg0 (ix2 ((((cfg0.win 2).blk t).view.emb (ix2 p q)) 0) k) := by
    show V m c main_arg0 (((cfg0.win 0).blk t).view.emb (ix2 p k)) = _
    rw [hx]; rfl
  have h1 : iblk m c 1 t (ix2 k q) = V m c main_v3 (ix2 k ((((cfg0.win 2).blk t).view.emb (ix2 p q)) 1)) := by
    show V m c main_v3 (((cfg0.win 1).blk t).view.emb (ix2 k q)) = _
    rw [hw]; rfl
  exact congrArg₂ (fun a b : EReal => a * b) h0 h1

/-- An index of the output array is in point `t`'s block iff each coordinate is in the block's range on its axis. -/
theorem mem_block (t : Fin cfg0.N) (i : S500000x128.Idx) :
    i ∈ ((cfg0.win 2).blk t).view.set ↔ ∀ a : Fin 2, win0_2.index t a * S20000x128.size a ≤ (i a).val ∧ (i a).val < win0_2.index t a * S20000x128.size a + S20000x128.size a := by
  show i ∈ ((View.whole main_v4).slice (win0_2.rect t)).set ↔ _
  rw [View.set_slice_whole, Rect.mem_set_unit]
  exact Iff.rfl

/-- Row `r` of the output is written back by point `r / 20000`: the 25 row blocks cover the array. -/
theorem covered (i : S500000x128.Idx) :
    ∃ t : Fin cfg0.N, (cfg0.win 2).flush t = true ∧ i ∈ ((cfg0.win 2).blk t).view.set := by
  have hi0 : (i 0).val < 500000 := (i 0).isLt
  have hi1 : (i 1).val < 128 := (i 1).isLt
  have hN : cfg0.N = 25 := N_0
  have ht : (i 0).val / 20000 < cfg0.N := by rw [hN]; omega
  obtain ⟨-, -, -, -, e20, e21⟩ := block_indices ⟨(i 0).val / 20000, ht⟩
  have e20' : win0_2.index ⟨(i 0).val / 20000, ht⟩ (0 : Fin 2) = (i 0).val / 20000 := e20
  refine ⟨⟨(i 0).val / 20000, ht⟩, flush0_2 _, ?_⟩
  rw [mem_block]
  intro a
  match a with
  | ⟨0, _⟩ =>
    show win0_2.index ⟨(i 0).val / 20000, ht⟩ (0 : Fin 2) * 20000 ≤ (i 0).val ∧ (i 0).val < win0_2.index ⟨(i 0).val / 20000, ht⟩ (0 : Fin 2) * 20000 + 20000
    rw [e20']; omega
  | ⟨1, _⟩ =>
    show win0_2.index ⟨(i 0).val / 20000, ht⟩ (1 : Fin 2) * 128 ≤ (i 1).val ∧ (i 1).val < win0_2.index ⟨(i 0).val / 20000, ht⟩ (1 : Fin 2) * 128 + 128
    rw [e21]; omega

/-- After the run the output array is the product of all rows of the input with the merged weights, both as launched. -/
theorem final (c : Dev nD) :
    (dats m 0 c).arrAt 2 cfg0.N
      = prod (m ((c : Thread nD τ).loc main_arg0)) (MergedWeights.merged (m ((c : Thread nD τ).loc main_arg1)) (m ((c : Thread nD τ).loc main_arg2))) := by
  rw [(dats m 0 c).arrAt_eq_of_cover 2 (prod (V m c main_arg0) (V m c main_v3)) (fun t _ => flushed_eq m c t) covered,
    V_main_arg0, MergedWeights.entry_weights]

/-- The kernel's run, read: the output ends at the product, the arguments unchanged. -/
theorem run : θ_run defs (onTc (τ := τ) (main (F := Ideal))) ⟨m, fun _ => 0, ρ⟩ fun r => ∀ c : Dev nD,
      r.2.mem ((c : Thread nD τ).loc main_v4)
        = prod (m ((c : Thread nD τ).loc main_arg0)) (MergedWeights.merged (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.RowBlocks

end
-- ==== Proof.ReferenceProduct.lean ====
/-
  The reference computes the same product.

  The reference merges the weights exactly as the kernel's host prefix does (the same five
  operations on the same two arguments) and then contracts all 500000 rows of the input against the
  merged matrix in one step: entry `(r, j)` is `∑ k, x (r, k) * W (k, j)`, the product of the
  specification, with the same merged matrix `W`.
-/
import proofs.«400113_j5420248727955_4_alg».proof.Proof.Gen.ReferenceIdeal.Read
import proofs.«400113_j5420248727955_4_alg».proof.Proof.Spec
import proofs.«400113_j5420248727955_4_alg».proof.Proof.MergedWeights

noncomputable section

open scoped BigOperators

namespace Cert.ReferenceIdeal.WholeProduct

open Cert.ReferenceIdeal Cert.ReferenceIdeal.Gen Cert.ReferenceIdeal.Read Idealize.ShloMosaic Idealize.ShloMosaic.ValueIdx
open Cert.RowsTimesMatrix (prod)

/-- The reference's merged weights are the kernel's: the same operations of the same arguments. -/
theorem weights_eq (wts : (⟨S8x128x128, .f32⟩ : BufTy).Contents (Elt Ideal)) (scl : (⟨S8x1, .f32⟩ : BufTy).Contents (Elt Ideal)) :
    val_main_v3 (F := Ideal) wts scl = Cert.KernelIdeal.MergedWeights.merged (F := Ideal) wts scl := rfl

/-- The reference's result is the product of all rows with the merged weights. -/
theorem result_eq (x : (⟨S500000x128, .f32⟩ : BufTy).Contents (Elt Ideal)) (wts : (⟨S8x128x128, .f32⟩ : BufTy).Contents (Elt Ideal))
    (scl : (⟨S8x1, .f32⟩ : BufTy).Contents (Elt Ideal)) :
    val_main_v4 (F := Ideal) x wts scl = prod x (Cert.KernelIdeal.MergedWeights.merged (F := Ideal) wts scl) := by
  funext i
  rw [val_main_v4_apply, weights_eq]
  have el : ∀ k : Fin 128, lidx_main_v4 i k = ix2 (i 0) k := fun k =>
    funext fun a => Fin.ext (by match a with | ⟨0, _⟩ => rfl | ⟨1, _⟩ => rfl)
  have er : ∀ k : Fin 128, ridx_main_v4 i k = ix2 k (i 1) := fun k =>
    funext fun a => Fin.ext (by match a with | ⟨0, _⟩ => rfl | ⟨1, _⟩ => rfl)
  simp only [el, er]
  rfl

end Cert.ReferenceIdeal.WholeProduct

end
-- ==== Proof.lean ====
/-
  The kernel multiplies the input, 20000 rows at a time, by one merged weight matrix; the reference
  multiplies all 500000 rows by the same merged matrix at once.  Both merge the weights the same way
  (each of the 8 relation matrices scaled by its scalar, the 8 added up entry by entry).

  On the extended reals both results are, at entry `(r, j)`, the sum over `k : Fin 128` of
  `x (r, k) * W (k, j)` with `W` the merged matrix (Proof/Spec.lean):
  * one grid point's stored block, entry by entry, is that sum over the point's rows — the rounding
    to bf16 before the contraction is the identity on the extended reals and the zero accumulator
    adds nothing (Proof/BlockProduct.lean);
  * the matrix every grid point reads is the merged one (Proof/MergedWeights.lean);
  * the 25 row blocks cover the output, so the output array is the whole product
    (Proof/RowBlocks.lean);
  * the reference's one contraction is the same sum with the same merged matrix
    (Proof/ReferenceProduct.lean).
  The two sides are the same expression entry by entry, so no algebraic law and no finiteness of the
  inputs is needed.  The kernel applies no idealizing rewrite, so its idealization is its own text.
-/
import proofs.«400113_j5420248727955_4_alg».proof.Defs
import proofs.«400113_j5420248727955_4_alg».proof.Proof.Gen.Kernel
import proofs.«400113_j5420248727955_4_alg».proof.Proof.Gen.Kernel.Frame
import proofs.«400113_j5420248727955_4_alg».proof.Proof.Gen.KernelIdeal
import proofs.«400113_j5420248727955_4_alg».proof.Proof.Gen.KernelIdeal.Frame
import proofs.«400113_j5420248727955_4_alg».proof.Proof.Gen.KernelIdeal.Value
import proofs.«400113_j5420248727955_4_alg».proof.Proof.Gen.ReferenceIdeal
import proofs.«400113_j5420248727955_4_alg».proof.Proof.Gen.ReferenceIdeal.Run
import proofs.«400113_j5420248727955_4_alg».proof.Proof.Gen.ReferenceIdeal.Read
import proofs.«400113_j5420248727955_4_alg».proof.Proof.Gen.Pre_finite_inputs
import proofs.«400113_j5420248727955_4_alg».proof.Proof.RowBlocks
import proofs.«400113_j5420248727955_4_alg».proof.Proof.ReferenceProduct
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments as they were: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals: nothing to state. -/
theorem preserves : Cert.preserves_Kernel_KernelIdeal := trivial

/-- From arguments that agree, both programs end with the product of all input rows with the merged weights. -/
theorem algebraic : Cert.algebraic_KernelIdeal_ReferenceIdeal := by
  intro m ρ m' ρ' _ hagree
  refine ⟨_, Cert.KernelIdeal.RowBlocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.WholeProduct.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
